-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1000 : Shape := ⟨2, ![65536, 1000]⟩
abbrev S65536 : Shape := ⟨1, ![65536]⟩
abbrev S_ : Shape := ⟨0, ![]⟩

class Facts : Prop where
  bcast_S_S65536x1000 : S_.BroadcastsInDim S65536x1000 (![] : Fin 0 → Fin S65536x1000.rank)
  reducesTo_S65536x1000_S_d0_1 : S65536x1000.ReducesTo [0, 1] S_
  h_S_ : 0 < S_.numel
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S65536x1000 .f32) (main_arg1 : IVec S65536 32) : IVec S_ 1 :=
  let main_v0 : FVec F S65536x1000 .f32 := Host.absf main_arg0
  let main_cst : FVec F S_ .f32 := constant S_ .f32 0x7F800000#32
  let main_v1 : FVec F S65536x1000 .f32 := broadcastInDim S65536x1000 ![] bcast_S_S65536x1000 main_cst
  let main_v2 : IVec S65536x1000 1 := cmpf .olt main_v0 main_v1
  let main_c : IVec S_ 1 := constantI S_ 1 1#1
  let main_v3 : IVec S_ 1 := (fun x v => Host.reduce IntOp.andi x v reducesTo_S65536x1000_S_d0_1 h_S_) main_v2 main_c
  let main_c_0 : IVec S_ 32 := constantI S_ 32 0#32
  let main_v4 : IVec S65536 32 := broadcastInDim S65536 ![] bcast_S_S65536 main_c_0
  let main_v5 : IVec S65536 1 := cmpi .sge main_arg1 main_v4
  let main_c_1 : IVec S_ 1 := constantI S_ 1 1#1
  let main_v6 : IVec S_ 1 := (fun x v => Host.reduce IntOp.andi x v reducesTo_S65536_S_d0 h_S_) main_v5 main_c_1
  let main_v7 : IVec S_ 1 := andi main_v3 main_v6
  let main_c_2 : IVec S_ 32 := constantI S_ 32 1000#32
  let main_v8 : IVec S65536 32 := broadcastInDim S65536 ![] bcast_S_S65536 main_c_2
  let main_v9 : IVec S65536 1 := cmpi .slt main_arg1 main_v8
  let main_c_3 : IVec S_ 1 := constantI S_ 1 1#1
  let main_v10 : IVec S_ 1 := (fun x v => Host.reduce IntOp.andi x v reducesTo_S65536_S_d0 h_S_) main_v9 main_c_3
  let main_v11 : IVec S_ 1 := andi main_v7 main_v10
  main_v11
-- ==== Kernel.lean ====
abbrev S65536x1000 : Shape := ⟨2, ![65536, 1000]⟩
abbrev S65536 : Shape := ⟨1, ![65536]⟩
abbrev S65536x1 : Shape := ⟨2, ![65536, 1]⟩
abbrev S16x1x1 : Shape := ⟨3, ![16, 1, 1]⟩
abbrev S4096x1000 : Shape := ⟨2, ![4096, 1000]⟩
abbrev S4096x1 : Shape := ⟨2, ![4096, 1]⟩
abbrev S1x1x1 : Shape := ⟨3, ![1, 1, 1]⟩
abbrev S4096 : Shape := ⟨1, ![4096]⟩
abbrev S1x4096x1 : Shape := ⟨3, ![1, 4096, 1]⟩
abbrev S1 : Shape := ⟨1, ![1]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S65536x1000, .f32⟩
  | .hbm, ⟨1, _⟩ => ⟨S65536, .i32⟩
  | .hbm, ⟨2, _⟩ => ⟨S65536x1, .i32⟩
  | .hbm, ⟨3, _⟩ => ⟨S16x1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S4096x1000, .f32⟩
  | .local _ .vmem, ⟨1, _⟩ => ⟨S4096x1000, .f32⟩
  | .local _ .vmem, ⟨2, _⟩ => ⟨S4096x1, .i32⟩
  | .local _ .vmem, ⟨3, _⟩ => ⟨S4096x1, .i32⟩
  | .local _ .vmem, ⟨4, _⟩ => ⟨S1x1x1, .f32⟩
  | .local _ .vmem, ⟨5, _⟩ => ⟨S1x1x1, .f32⟩
  | _, _ => ⟨S65536x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S65536_S65536x1 : S65536.ShapeCasts S65536x1
  inb_S4096x1000_S4096x1000_0_0 : ∀ a, (![0, 0] : Fin 2 → Nat) a + S4096x1000.size a ≤ S4096x1000.size a
  h_S4096x1000 : 0 < S4096x1000.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  reduces_S4096x1000_S4096 : S4096x1000.Reduces [1] S4096
  shapeCasts_S4096_S4096x1 : S4096.ShapeCasts S4096x1
  iota_S4096x1000_d1_w32 : S4096x1000.Iotas .tc 32 [1]
  broadcasts_S4096x1_S4096x1000 : S4096x1.Broadcasts S4096x1000
  shapeCasts_S4096x1_S1x4096x1 : S4096x1.ShapeCasts S1x4096x1
  reduces_S1x4096x1_S1 : S1x4096x1.Reduces [1, 2] S1
  shapeCasts_S1_S1x1x1 : S1.ShapeCasts S1x1x1
  inpos_S1x1x1_p0_0_0 : ∀ a, (![0, 0, 0] : Fin 3 → Nat) a < S1x1x1.size a
  inb_S1x1x1_S1x1x1_0_0_0 : ∀ a, (![0, 0, 0] : Fin 3 → Nat) a + S1x1x1.size a ≤ S1x1x1.size a
  h_S1x1x1 : 0 < S1x1x1.numel
  reducesTo_S16x1x1_S_d0_1_2 : S16x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1000.size a ≤ S65536x1000.size a
  hwx0_0 : ∀ i : grid0.Coords, EltTy.bits .f32 = 32 ∨ (Rect.block (s := S65536x1000) S4096x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S65536x1.size a
  hwx0_1 : ∀ i : grid0.Coords, EltTy.bits .i32 = 32 ∨ (Rect.block (s := S65536x1) S4096x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S16x1x1.size a
  hwx0_2 : ∀ i : grid0.Coords, EltTy.bits .f32 = 32 ∨ (Rect.block (s := S16x1x1) S1x1x1.size (cc0_transform_2 i) (hinb0_2 i)).WholeWords (EltTy.packing .f32)

variable [Facts₀]

abbrev win0_0 : Pipeline.Window sig grid0 :=
  Pipeline.Window.ofSpec (Memref.whole main_arg0) S4096x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x1000 : Shape := ⟨2, ![65536, 1000]⟩
abbrev S65536 : Shape := ⟨1, ![65536]⟩
abbrev S_ : Shape := ⟨0, ![]⟩
abbrev S65536x1 : Shape := ⟨2, ![65536, 1]⟩
abbrev S65536x1x1 : Shape := ⟨3, ![65536, 1, 1]⟩
abbrev S1 : Shape := ⟨1, ![1]⟩
abbrev S1x1x1 : Shape := ⟨3, ![1, 1, 1]⟩

abbrev nBuf : Space → Nat
  | .hbm => 39
  | .vmem => 0
  | .smem => 0
  | _ => 0

abbrev bufTy : (tb : Table) → Fin (tcTables nBuf tb) → BufTy
  | .hbm, ⟨0, _⟩ => ⟨S65536x1000, .f32⟩
  | .hbm, ⟨1, _⟩ => ⟨S65536, .i32⟩
  | .hbm, ⟨2, _⟩ => ⟨S_, .f32⟩
  | .hbm, ⟨3, _⟩ => ⟨S65536, .f32⟩
  | .hbm, ⟨4, _⟩ => ⟨S65536x1, .i32⟩
  | .hbm, ⟨5, _⟩ => ⟨S_, .i32⟩
  | .hbm, ⟨6, _⟩ => ⟨S65536x1, .i32⟩
  | .hbm, ⟨7, _⟩ => ⟨S65536x1, .i1⟩
  | .hbm, ⟨8, _⟩ => ⟨S_, .i32⟩
  | .hbm, ⟨9, _⟩ => ⟨S65536x1, .i32⟩
  | .hbm, ⟨10, _⟩ => ⟨S65536x1, .i32⟩
  | .hbm, ⟨11, _⟩ => ⟨S65536x1, .i32⟩
  | .hbm, ⟨12, _⟩ => ⟨S65536x1x1, .i32⟩
  | .hbm, ⟨13, _⟩ => ⟨S1, .i32⟩
  | .hbm, ⟨14, _⟩ => ⟨S_, .i32⟩
  | .hbm, ⟨15, _⟩ => ⟨S65536x1x1, .i32⟩
  | .hbm, ⟨16, _⟩ => ⟨S65536x1x1, .i1⟩
  | .hbm, ⟨17, _⟩ => ⟨S1x1x1, .i32⟩
  | .hbm, ⟨18, _⟩ => ⟨S65536x1x1, .i32⟩
  | .hbm, ⟨19, _⟩ => ⟨S65536x1x1, .i1⟩
  | .hbm, ⟨20, _⟩ => ⟨S65536x1x1, .i1⟩
  | .hbm, ⟨21, _⟩ => ⟨S_, .i1⟩
  | .hbm, ⟨22, _⟩ => ⟨S65536x1, .i1⟩
  | .hbm, ⟨23, _⟩ => ⟨S65536x1, .f32⟩
  | .hbm, ⟨24, _⟩ => ⟨S_, .f32⟩
  | .hbm, ⟨25, _⟩ => ⟨S65536x1, .f32⟩
  | .hbm, ⟨26, _⟩ => ⟨S65536x1, .f32⟩
  | .hbm, ⟨27, _⟩ => ⟨S65536, .f32⟩
  | .hbm, ⟨28, _⟩ => ⟨S65536x1, .f32⟩
  | .hbm, ⟨29, _⟩ => ⟨S65536x1000, .f32⟩
  | .hbm, ⟨30, _⟩ => ⟨S65536x1000, .f32⟩
  | .hbm, ⟨31, _⟩ => ⟨S_, .f32⟩
  | .hbm, ⟨32, _⟩ => ⟨S65536, .f32⟩
  | .hbm, ⟨33, _⟩ => ⟨S65536, .f32⟩
  | .hbm, ⟨34, _⟩ => ⟨S65536, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S65536x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst_0 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_cst_1 : Ref sig .tc := ⟨.hbm, 35, rfl⟩
abbrev main_v10 : Ref sig .tc := ⟨.hbm, 36, rfl⟩
abbrev main_cst_2 : Ref sig .tc := ⟨.hbm, 37, rfl⟩
abbrev main_v11 : Ref sig .tc := ⟨.hbm, 38, rfl⟩

abbrev nD : Nat := 1
abbrev τ : Topo := Topo.v7x

variable {F : FTy → Type} [FloatOps F]

class Facts₀ : Prop where
  reducesTo_S65536x1000_S65536_d1 : S65536x1000.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  shapeCasts_S65536x1_S65536x1x1 : S65536x1.ShapeCasts S65536x1x1
  bcast_S_S65536x1x1 : S_.BroadcastsInDim S65536x1x1 (![] : Fin 0 → Fin S65536x1x1.rank)
  bcast_S1_S1x1x1_2 : S1.BroadcastsInDim S1x1x1 (![2] : Fin 1 → Fin S1x1x1.rank)
  bcast_S1x1x1_S65536x1x1_0_1_2 : S1x1x1.BroadcastsInDim S65536x1x1 (![0, 1, 2] : Fin 3 → Fin S65536x1x1.rank)
  reducesTo_S65536x1x1_S65536x1_d2 : S65536x1x1.ReducesTo [2] S65536x1
  shapeCasts_S65536x1_S65536 : S65536x1.ShapeCasts S65536
  bcast_S65536x1_S65536x1000_0_1 : S65536x1.BroadcastsInDim S65536x1000 (![0, 1] : Fin 2 → Fin S65536x1000.rank)
  reducesTo_S65536_S_d0 : S65536.ReducesTo [0] S_
  gather_S65536x1000_S65536x1x1_S65536x1_n_1_0_0_1_2_11_wf : GatherDims.WF S65536x1000 S65536x1x1 S65536x1 [] [1] [0] [1] [0] 2 ![1, 1]

variable [Facts₀]

def gather_S65536x1000_S65536x1x1_S65536x1_n_1_0_0_1_2_11 : GatherDims S65536x1000 S65536x1x1 S65536x1 where
  offsetDims := []
  collapsedSliceDims := [1]
  operandBatchingDims := [0]
  startIndicesBatchingDims := [0]
  startIndexMap := [1]
  indexVectorDim := 2
  sliceSizes := ![1, 1]
  wf := gather_S65536x1000_S65536x1x1_S65536x1_n_1_0_0_1_2_11_wf

class Facts : Prop extends Facts₀ where

variable [Facts]
-- ==== Proof.Spec.lean ====
/-
  The mathematics of the prototype loss, with no program in sight.

  For a row f of 1000 distances and a label n, the row's term is
      (f[n] - min f) / (sum_k f k - 1000 * min f),
  the in-class distance f[n] spelt as the masked sum (sum_k [k = n] * f k); the loss is the sum of the 65536 rows'
  terms divided by 65536.  Two arrangements of this number meet here:

  * the denominators (sum_k (f k - min f)) and (sum_k f k - 1000 * min f) agree when every entry of the row is a real
    number (the minimum of finitely many reals under +infinity is a real, and the identity is then arithmetic in the
    reals; on the extended reals it would fail at an infinite entry);
  * the masked sum is the entry at the label when the label is below 1000;
  * a sum over sixteen tiles of 4096 consecutive rows is the sum over all rows (addition on the extended reals is
    commutative and associative, infinities included, so no finiteness is needed for this one).
-/
import Idealize.ShloMosaic.PureOps.Ideal
import Idealize.ShloMosaic.PureOps.Ideal.Laws
import Idealize.ShloMosaic.Lib.ValueIdx
import Mathlib.Data.Finset.Fold

noncomputable section

namespace Cert.ProtoLoss

open Idealize.ShloMosaic Idealize.ShloMosaic.ValueIdx

/-! ## The two literals whose values matter -/

/-- The pattern 0x447A0000 is the real number 1000. -/
theorem ofBits_thousand : Ideal.ofBits .f32 0x447A0000#32 = ((1000 : ℝ) : EReal) := by
  simp [Ideal.ofBits, Ideal.ieee, -EReal.coe_mul]; norm_num

/-- The pattern 0x7F800000 is +infinity. -/
theorem ofBits_posInf : Ideal.ofBits .f32 0x7F800000#32 = (⊤ : EReal) := by
  simp [Ideal.ofBits, Ideal.ieee]

/-! ## A row -/

/-- The minimum of a row, folded from +infinity. -/
def rowMin (f : Fin 1000 → EReal) : EReal := (Finset.univ : Finset (Fin 1000)).fold min ⊤ f

/-- The in-class distance as the masked sum: the entries whose position is the label, the others replaced by zero. -/
def inClass (f : Fin 1000 → EReal) (n : ℕ) : EReal := ∑ k : Fin 1000, if k.val = n then f k else 0

/-- One row's term. -/
def perRow (f : Fin 1000 → EReal) (n : ℕ) : EReal :=
  Ideal.div (inClass f n - rowMin f) ((∑ k : Fin 1000, f k) - Ideal.ofBits .f32 0x447A0000#32 * rowMin f)

/-- The loss: the rows' terms summed, over 65536. -/
def loss (x : Fin 65536 → Fin 1000 → EReal) (lab : Fin 65536 → ℕ) : EReal :=
  Ideal.div (∑ i : Fin 65536, perRow (x i) (lab i)) (Ideal.ofBits .f32 0x47800000#32)

/-- The distances array as rows: row i, position k. -/
def xOf (a0 : (⟨2, ![65536, 1000]⟩ : Shape).Idx → EReal) : Fin 65536 → Fin 1000 → EReal := fun i k => a0 (ix2 i k)

/-- The labels array as natural numbers. -/
def labOf (a1 : (⟨1, ![65536]⟩ : Shape).Idx → BitVec 32) : Fin 65536 → ℕ := fun i => (a1 (ix1 i)).toNat

/-- The minimum of a row of reals is a real: it is at most the first entry, so not +infinity, and above -infinity
    because every entry and the starting value are. -/
theorem rowMin_real (f : Fin 1000 → EReal) (hf : ∀ k, ∃ r : ℝ, f k = (r : EReal)) : ∃ μ : ℝ, rowMin f = (μ : EReal) := by
  have hne_top : rowMin f ≠ ⊤ := by
    obtain ⟨r, hr⟩ := hf ⟨0, by norm_num⟩
    have hle : rowMin f ≤ f ⟨0, by norm_num⟩ :=
      (Finset.fold_min_le _).mpr (Or.inr ⟨⟨0, by norm_num⟩, Finset.mem_univ _, le_refl _⟩)
    rw [hr] at hle
    exact ne_of_lt (lt_of_le_of_lt hle (EReal.coe_lt_top r))
  have hne_bot : rowMin f ≠ ⊥ := by
    have hlt : (⊥ : EReal) < rowMin f :=
      (Finset.lt_fold_min _).mpr ⟨bot_lt_top, fun k _ => by obtain ⟨r, hr⟩ := hf k; rw [hr]; exact EReal.bot_lt_coe r⟩
    exact ne_of_gt hlt
  exact ⟨(rowMin f).toReal, (EReal.coe_toReal hne_top hne_bot).symm⟩

/-- A finite sum of reals, summed on the extended reals, is the real sum. -/
theorem coe_sum {ι : Type*} (s : Finset ι) (g : ι → ℝ) : (∑ k ∈ s, ((g k : ℝ) : EReal)) = ((∑ k ∈ s, g k : ℝ) : EReal) := by
  classical
  induction s using Finset.induction_on with
  | empty => simp
  | insert a s ha ih => rw [Finset.sum_insert ha, Finset.sum_insert ha, ih, EReal.coe_add]

/-- THE DENOMINATORS: over a row of reals, subtracting the minimum entry by entry and then summing is summing and then
    subtracting a thousand minima. -/
theorem sum_sub_rowMin (f : Fin 1000 → EReal) (hf : ∀ k, ∃ r : ℝ, f k = (r : EReal)) :
    ∑ k : Fin 1000, (f k - rowMin f) = (∑ k : Fin 1000, f k) - Ideal.ofBits .f32 0x447A0000#32 * rowMin f := by
  choose g hg using hf
  obtain ⟨μ, hμ⟩ := rowMin_real f (fun k => ⟨g k, hg k⟩)
  rw [hμ, ofBits_thousand]
  simp only [hg]
  have h1 : ∀ k : Fin 1000, ((g k : ℝ) : EReal) - (μ : EReal) = ((g k - μ : ℝ) : EReal) := fun k => (EReal.coe_sub _ _).symm
  simp only [h1]
  rw [coe_sum, coe_sum, ← EReal.coe_mul, ← EReal.coe_sub]
  congr 1
  rw [Finset.sum_sub_distrib, Finset.sum_const, Finset.card_univ, Fintype.card_fin, nsmul_eq_mul]
  norm_num

/-- THE MASKED SUM at a label below 1000 is the entry at the label. -/
theorem inClass_eq (f : Fin 1000 → EReal) (n : ℕ) (h : n < 1000) : inClass f n = f ⟨n, h⟩ := by
  unfold inClass
  rw [Finset.sum_eq_single (⟨n, h⟩ : Fin 1000)]
  · simp
  · intro k _ hk
    rw [if_neg]
    intro e
    exact hk (Fin.ext e)
  · intro hn
    exact absurd (Finset.mem_univ _) hn

/-- THE REFERENCE'S ARRANGEMENT of a row's term: the entry at the label, the minimum subtracted entry by entry in the
    denominator, the sum started from zero. -/
theorem perRow_of_entry (f : Fin 1000 → EReal) (hf : ∀ k, ∃ r : ℝ, f k = (r : EReal)) (n : ℕ) (h : n < 1000) :
    Ideal.div (f ⟨n, h⟩ - rowMin f) (Ideal.ofBits .f32 0x00000000#32 + ∑ k : Fin 1000, (f k - rowMin f)) = perRow f n := by
  unfold perRow
  rw [inClass_eq f n h, sum_sub_rowMin f hf, Ideal.ofBits_zero_f32, zero_add]

/-! ## Sums over tiles and over shapes' indices -/

/-- Sixteen tiles of 4096 consecutive rows are all 65536 rows. -/
theorem sum_tiles (G : Fin 65536 → EReal) :
    ∑ t : Fin 16, ∑ r : Fin 4096, G ⟨4096 * t.val + r.val, by have := t.isLt; have := r.isLt; omega⟩ = ∑ i : Fin 65536, G i := by
  rw [← Fintype.sum_prod_type']
  refine Fintype.sum_equiv (finProdFinEquiv (m := 16) (n := 4096)) _ _ (fun p => ?_)
  refine congrArg G (Fin.ext ?_)
  simp [finProdFinEquiv]
  omega

/-- A sum over the indices of a rank-one shape is the sum over its one coordinate. -/
theorem sum_idx1 {n : Nat} (g : (⟨1, ![n]⟩ : Shape).Idx → EReal) : ∑ i, g i = ∑ a : Fin n, g (ix1 a) :=
  (Fintype.sum_equiv ⟨fun a => ix1 a, fun i => i 0, fun _ => rfl, fun i => (eq_ix1 i).symm⟩ _ _ (fun _ => rfl)).symm

/-- A sum over the indices of a [n, 1, 1] shape is the sum over its first coordinate. -/
theorem sum_idx3_left {n : Nat} (g : (⟨3, ![n, 1, 1]⟩ : Shape).Idx → EReal) :
    ∑ i, g i = ∑ a : Fin n, g (ix3 a 0 0) :=
  (Fintype.sum_equiv ⟨fun a => ix3 a 0 0, fun i => i 0, fun _ => rfl, fun i => by
      have h1 : (i 1).val < 1 := (i 1).isLt
      have h2 : (i 2).val < 1 := (i 2).isLt
      funext a
      match a with
      | ⟨0, _⟩ => rfl
      | ⟨1, _⟩ => exact Fin.ext (by show 0 = (i 1).val; omega)
      | ⟨2, _⟩ => exact Fin.ext (by show 0 = (i 2).val; omega)⟩ _ _ (fun _ => rfl)).symm

/-- A sum over the indices of a [1, n, 1] shape is the sum over its middle coordinate. -/
theorem sum_idx3_mid {n : Nat} (g : (⟨3, ![1, n, 1]⟩ : Shape).Idx → EReal) :
    ∑ i, g i = ∑ a : Fin n, g (ix3 0 a 0) :=
  (Fintype.sum_equiv ⟨fun a => ix3 0 a 0, fun i => i 1, fun _ => rfl, fun i => by
      have h0 : (i 0).val < 1 := (i 0).isLt
      have h2 : (i 2).val < 1 := (i 2).isLt
      funext a
      match a with
      | ⟨0, _⟩ => exact Fin.ext (by show 0 = (i 0).val; omega)
      | ⟨1, _⟩ => rfl
      | ⟨2, _⟩ => exact Fin.ext (by show 0 = (i 2).val; omega)⟩ _ _ (fun _ => rfl)).symm

end Cert.ProtoLoss

end
-- ==== Proof.PreDecode.lean ====
/-
  What the precondition says, read off its printed form: every distance is a real number (its absolute value is below
  +infinity, which rules out both infinities), and every label, read as a signed word, is at least 0 and below 1000,
  so that as a natural number it is below 1000.
-/
import proofs.«422849_j78615081386035_2_alg».proof.Pre_finite_inputs
import proofs.«422849_j78615081386035_2_alg».proof.Proof.Gen.Pre_finite_inputs
import proofs.«422849_j78615081386035_2_alg».proof.Proof.Spec
import Idealize.ShloMosaic.PureOps.Ideal
import Idealize.ShloMosaic.Lib.ReduceAll
import Idealize.ShloMosaic.Lib.Affine
import Idealize.ShloMosaic.Lib.ValueIdx
import Idealize.ShloMosaic.Lib.StableHlo.Predicate

noncomputable section

namespace Cert.ProtoLoss.Pre

open Idealize.ShloMosaic Cert.Pre_finite_inputs

instance : Subsingleton S_.Idx := ⟨fun a b => funext fun d => d.elim0⟩

/-- The precondition's three conjuncts at an element: the distance is real, the label is in [0, 1000). -/
theorem decode (x : FVec Ideal S65536x1000 .f32) (l : IVec S65536 32)
    (h : Cert.Pre_finite_inputs.fn (F := Ideal) x l = fun _ => 1#1) :
    (∀ i, ∃ r : ℝ, x i = (r : EReal)) ∧ (∀ p, (l p).toNat < 1000) := by
  have h0 := congrFun h ValueIdx.ix0
  dsimp only [Cert.Pre_finite_inputs.fn] at h0
  obtain ⟨h12, h3⟩ := IntOp.andi_eq_one.mp h0
  obtain ⟨h1, h2⟩ := IntOp.andi_eq_one.mp h12
  refine ⟨fun i => ?_, fun p => ?_⟩
  · -- |x i| < +infinity
    have e := Host.reduce_andi_all _ _ _ _ _ h1 i
    have e' : Ideal.cmp .olt (max (x i) (-(x i))) (Ideal.ofBits .f32 0x7F800000#32) = 1#1 := e
    rw [Cert.ProtoLoss.ofBits_posInf] at e'
    have hlt : max (x i) (-(x i)) < (⊤ : EReal) := of_decide_eq_true ((StableHlo.Predicate.ofBool_eq_one_iff _).mp e')
    have hne_top : x i ≠ ⊤ := fun ht => by rw [ht] at hlt; simp at hlt
    have hne_bot : x i ≠ ⊥ := fun hb => by rw [hb] at hlt; simp at hlt
    exact ⟨(x i).toReal, (EReal.coe_toReal hne_top hne_bot).symm⟩
  · -- 0 <= l p < 1000 as signed words
    have e2 : IntOp.cmpi .sge (l p) 0#32 = 1#1 := Host.reduce_andi_all _ _ _ _ _ h2 p
    have e3 : IntOp.cmpi .slt (l p) 1000#32 = 1#1 := Host.reduce_andi_all _ _ _ _ _ h3 p
    rw [IntOp.cmpi_sge] at e2
    rw [IntOp.cmpi_slt] at e3
    have z : (0#32 : BitVec 32).toInt = 0 := by decide
    have k : (1000#32 : BitVec 32).toInt = 1000 := by decide
    rw [z] at e2
    rw [k] at e3
    have hN := (l p).isLt
    rw [BitVec.toInt_eq_toNat_cond] at e2 e3
    split_ifs at e2 e3 <;> omega

end Cert.ProtoLoss.Pre

end
-- ==== Proof.KernelPayload.lean ====
/-
  The kernel body's arithmetic at one grid point, read at the ideal values.

  The body loads a tile of 4096 rows of distances (4096 x 1000) and the tile's labels (4096 x 1), and stores ONE number:
  the sum over the tile's rows r of
      (sum_k [k = label r] * d r k  -  min_k d r k) / (sum_k d r k  -  1000 * min_k d r k).
  Each lane reduction is read at a row as a sum, or a fold of min, over the row's 1000 positions; the mask compares the
  position, as a 32-bit word, with the label word, which for a position below 1000 is the same as comparing the natural
  numbers; the shape casts between [4096], [4096,1] and [1,4096,1] keep the row.
-/
import proofs.«422849_j78615081386035_2_alg».proof.Proof.Gen.KernelIdeal.Skeleton
import proofs.«422849_j78615081386035_2_alg».proof.Proof.Spec
import Idealize.ShloMosaic.PureOps.Ideal.Laws
import Idealize.ShloMosaic.Lib.ValueIdx
import Idealize.ShloMosaic.Lib.Pipeline.Value
import Idealize.ShloMosaic.Lib.Affine

noncomputable section

namespace Cert.KernelIdeal.Hand

open Idealize.ShloMosaic Idealize.ShloMosaic.ValueIdx Cert.KernelIdeal Cert.KernelIdeal.Gen Cert.ProtoLoss

/-- Row r of the tile with the column k put back: the index (r, k). -/
theorem lift_row (r : Fin 4096) (k : Fin 1000) :
    reduces_S4096x1000_S4096.lift (ix1 r) k = (ix2 r k : S4096x1000.Idx) := by
  funext a
  apply Fin.ext
  match a with
  | ⟨0, _⟩ => rfl
  | ⟨1, _⟩ => rfl

/-- The row minimum, kept as a column, at row r: the fold of min from +infinity over the row. -/
theorem rowMin_apply (v : FVec Ideal S4096x1000 .f32) (r : Fin 4096) :
    shapeCast S4096x1 (multiReduction .minimumf [1] S4096 v 0x7F800000#32 reduces_S4096x1000_S4096 (.inl rfl) rfl)
        shapeCasts_S4096_S4096x1 (ix2 r 0)
      = rowMin (fun k => v (ix2 r k)) := by
  refine (shapeCast_apply _ _ (ix2 r 0) (ix1 r) ?_).trans ?_
  · rw [Shape.rowMajor_val_one, Shape.rowMajor_val_two]
    show r.val = r.val * 1 + 0
    omega
  · refine (multiReduction_minimumf_eq_fold v _ reduces_S4096x1000_S4096 _ _ (ix1 r)).trans ?_
    refine (reduces_S4096x1000_S4096.fold_filter_drop_single _ _ v (ix1 r)).trans ?_
    show Finset.fold min (Ideal.ofBits .f32 0x7F800000#32) _ _ = _
    rw [ofBits_posInf]
    unfold rowMin
    congr 1
    funext k
    exact congrArg v (lift_row r k)

/-- A row sum, kept as a column, at row r: the sum over the row. -/
theorem rowSum_apply (w : FVec Ideal S4096x1000 .f32) (r : Fin 4096) :
    shapeCast S4096x1 (multiReduction .add [1] S4096 w 0x00000000#32 reduces_S4096x1000_S4096 (.inl rfl) rfl)
        shapeCasts_S4096_S4096x1 (ix2 r 0)
      = ∑ k : Fin 1000, w (ix2 r k) := by
  refine (shapeCast_apply _ _ (ix2 r 0) (ix1 r) ?_).trans ?_
  · rw [Shape.rowMajor_val_one, Shape.rowMajor_val_two]
    show r.val = r.val * 1 + 0
    omega
  · refine (Ideal.multiReduction_add_single w _ reduces_S4096x1000_S4096 _ _ (ix1 r)).trans ?_
    exact Finset.sum_congr rfl fun k _ => congrArg w (lift_row r k)

/-- A position below 1000, as a 32-bit word, is the label word exactly when it is the label's natural number. -/
theorem ofNat_eq_iff (k : Fin 1000) (w : BitVec 32) : BitVec.ofNat 32 k.val = w ↔ k.val = w.toNat := by
  have hk := k.isLt
  constructor
  · intro e
    rw [← e, BitVec.toNat_ofNat]
    omega
  · intro e
    apply BitVec.eq_of_toNat_eq
    rw [BitVec.toNat_ofNat, ← e]
    omega

/-- The masked distances at (r, k): the distance where the position is the row's label, zero elsewhere. -/
theorem masked_apply (v0 : Vec Ideal S4096x1000 .f32) (v1 : Vec Ideal S4096x1 .i32) (r : Fin 4096) (k : Fin 1000) :
    (select (cmpi .eq (iota .tc S4096x1000 32 [1] iota_S4096x1000_d1_w32)
          (broadcastTo S4096x1000 (shapeCast S4096x1 v1 shapeCasts_S4096x1_S4096x1) broadcasts_S4096x1_S4096x1000))
        v0 (broadcast S4096x1000 (Scalar.ofBits (F := Ideal) .f32 0x00000000#32)) : Vec Ideal S4096x1000 .f32) (ix2 r k)
      = if k.val = (v1 (ix2 r 0)).toNat then v0 (ix2 r k) else 0 := by
  have hb : broadcastTo S4096x1000 (shapeCast S4096x1 v1 shapeCasts_S4096x1_S4096x1) broadcasts_S4096x1_S4096x1000 (ix2 r k)
      = v1 (ix2 r 0) := by
    rw [shapeCast_self]
    exact broadcastTo_apply _ _ (ix2 r k) (ix2 r 0) (fun a => by
      match a with
      | ⟨0, _⟩ => rfl
      | ⟨1, _⟩ => rfl)
  have hi : iota .tc S4096x1000 32 [1] iota_S4096x1000_d1_w32 (ix2 r k) = BitVec.ofNat 32 k.val :=
    iota_single_apply _ _ _ _ _ _
  show (if IntOp.cmpi .eq (iota .tc S4096x1000 32 [1] iota_S4096x1000_d1_w32 (ix2 r k))
        (broadcastTo S4096x1000 (shapeCast S4096x1 v1 shapeCasts_S4096x1_S4096x1) broadcasts_S4096x1_S4096x1000 (ix2 r k)) = 1#1
      then v0 (ix2 r k) else Ideal.ofBits .f32 0x00000000#32) = _
  rw [hi, hb, Ideal.ofBits_zero_f32]
  by_cases hk : k.val = (v1 (ix2 r 0)).toNat
  · rw [if_pos hk, if_pos (IntOp.cmpi_eq.mpr ((ofNat_eq_iff k _).mpr hk))]
  · rw [if_neg hk, if_neg (fun e => hk ((ofNat_eq_iff k _).mp (IntOp.cmpi_eq.mp e)))]

/-- The tile's column of row terms summed into the block's one number. -/
theorem tileSum_apply (u : FVec Ideal S4096x1 .f32) (j : S1x1x1.Idx) :
    broadcast S1x1x1 (extractAt ![0, 0, 0]
        (shapeCast S1x1x1 (multiReduction .add [1, 2] S1 (shapeCast S1x4096x1 u shapeCasts_S4096x1_S1x4096x1) 0x00000000#32
          reduces_S1x4096x1_S1 (.inl rfl) rfl) shapeCasts_S1_S1x1x1)
        inpos_S1x1x1_p0_0_0) j
      = ∑ r : Fin 4096, u (ix2 r 0) := by
  show shapeCast S1x1x1 (multiReduction .add [1, 2] S1 (shapeCast S1x4096x1 u shapeCasts_S4096x1_S1x4096x1) 0x00000000#32
          reduces_S1x4096x1_S1 (.inl rfl) rfl) shapeCasts_S1_S1x1x1 (fun a => ⟨(![0, 0, 0] : Fin 3 → Nat) a, inpos_S1x1x1_p0_0_0 a⟩) = _
  refine (shapeCast_apply _ _ _ (ix1 (0 : Fin 1)) ?_).trans ?_
  · rw [Shape.rowMajor_val_one, Shape.rowMajor_val_three]
    rfl
  · refine (Ideal.multiReduction_add_total _ _ reduces_S1x4096x1_S1 (by decide : ∀ b, S1.size b = 1) _ _ (ix1 (0 : Fin 1))).trans ?_
    rw [sum_idx3_mid]
    refine Finset.sum_congr rfl fun r _ => ?_
    refine shapeCast_apply _ _ (ix3 0 r 0) (ix2 r 0) ?_
    rw [Shape.rowMajor_val_two, Shape.rowMajor_val_three]
    show r.val * 1 + 0 = (0 * 4096 + r.val) * 1 + 0
    omega

/-- THE PAYLOAD: what the body stores is the sum over the tile's rows of the rows' terms. -/
theorem pay_apply (v0 : Vec Ideal S4096x1000 .f32) (v1 : Vec Ideal S4096x1 .i32) (j : S1x1x1.Idx) :
    k0_pay1 (F := Ideal) v0 v1 j = ∑ r : Fin 4096, perRow (fun k => v0 (ix2 r k)) (v1 (ix2 r 0)).toNat := by
  unfold k0_pay1
  dsimp only
  refine (tileSum_apply _ j).trans (Finset.sum_congr rfl fun r _ => ?_)
  rw [divf_apply, subf_apply, subf_apply, mulf_apply, broadcast_apply, rowMin_apply, rowSum_apply, rowSum_apply]
  unfold perRow inClass
  congr 2
  exact Finset.sum_congr rfl fun k _ => masked_apply v0 v1 r k

end Cert.KernelIdeal.Hand

end
-- ==== Proof.KernelValue.lean ====
/-
  The kernel's result as one function of the argument arrays.

  Grid point t (of 16) stages rows 4096 t ... 4096 t + 4095 of the distances and of the labels (the labels through the
  host reshape [65536] -> [65536, 1] that precedes the region) and writes back ONE number, the sum of those rows' terms,
  as block t of a [16, 1, 1] array; the sixteen blocks cover that array. After the region the host sums the sixteen numbers
  from zero and divides by 65536. Sixteen tiles of 4096 consecutive rows are all the rows, so the result is the loss.
-/
import proofs.«422849_j78615081386035_2_alg».proof.Proof.Gen.KernelIdeal.Frame
import proofs.«422849_j78615081386035_2_alg».proof.Proof.KernelPayload
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Hand

open Idealize.ShloMosaic.ValueIdx Cert.KernelIdeal Cert.KernelIdeal.Gen Cert.ProtoLoss

/-! ## Tiles -/

/-- The sum of the row terms of tile T: rows 4096 T ... 4096 T + 4095. -/
def tileSum (x : Fin 65536 → Fin 1000 → EReal) (lab : Fin 65536 → ℕ) (T : Fin 16) : EReal :=
  ∑ r : Fin 4096, perRow (x ⟨4096 * T.val + r.val, by have := T.isLt; have := r.isLt; omega⟩)
    (lab ⟨4096 * T.val + r.val, by have := T.isLt; have := r.isLt; omega⟩)

/-- The sixteen tile sums, added from zero and divided by 65536, are the loss. -/
theorem loss_of_tiles (x : Fin 65536 → Fin 1000 → EReal) (lab : Fin 65536 → ℕ) :
    Ideal.div (Ideal.ofBits .f32 0x00000000#32 + ∑ T : Fin 16, tileSum x lab T) (Ideal.ofBits .f32 0x47800000#32) = loss x lab := by
  unfold loss tileSum
  rw [Ideal.ofBits_zero_f32, zero_add, sum_tiles (fun i => perRow (x i) (lab i))]

/-- A tile's payload: when the two loaded blocks are rows 4096 T + r of the arrays, what the body stores is tile T's sum. -/
theorem pay_tile (x0 : Vec Ideal S4096x1000 .f32) (x1 : Vec Ideal S4096x1 .i32)
    (a0 : (⟨2, ![65536, 1000]⟩ : Shape).Idx → EReal) (a1 : (⟨1, ![65536]⟩ : Shape).Idx → BitVec 32) (T : Fin 16)
    (h0 : ∀ (r : Fin 4096) (k : Fin 1000),
      x0 (ix2 r k) = a0 (ix2 ⟨4096 * T.val + r.val, by have := T.isLt; have := r.isLt; omega⟩ k))
    (h1 : ∀ r : Fin 4096, x1 (ix2 r 0) = a1 (ix1 ⟨4096 * T.val + r.val, by have := T.isLt; have := r.isLt; omega⟩))
    (j : S1x1x1.Idx) : k0_pay1 (F := Ideal) x0 x1 j = tileSum (xOf a0) (labOf a1) T := by
  rw [pay_apply]
  unfold tileSum xOf labOf
  refine Finset.sum_congr rfl fun r _ => ?_
  rw [h1 r]
  congr 1
  funext k
  exact h0 r k

variable (m : (ℓ : Loc nD τ sig) → Buf (Elt Ideal) ℓ) (ρ : Dev nD → PrngReg)

/-! ## The windows' blocks -/

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: every window's block index is the grid point on its first axis and 0 elsewhere. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The grid has sixteen points. -/
theorem t_lt (t : Fin cfg0.N) : t.val < 16 := lt_of_lt_of_eq t.isLt (show cfg0.N = 16 from N_0)

/-- The distances block and the labels block at point t, at their literal types. -/
abbrev dblk (c : Dev nD) (t : Fin cfg0.N) : Vec Ideal S4096x1000 .f32 := iblk m c 0 t
abbrev lblk (c : Dev nD) (t : Fin cfg0.N) : Vec Ideal S4096x1 .i32 := iblk m c 1 t

/-- The distances block at point t is rows 4096 t + r of the argument. -/
theorem dblk_apply (c : Dev nD) (t : Fin cfg0.N) (r : Fin 4096) (k : Fin 1000) :
    dblk m c t (ix2 r k)
      = (m ((c : Thread nD τ).loc main_arg0) : S65536x1000.Idx → EReal)
          (ix2 ⟨4096 * t.val + r.val, by have := t_lt t; have := r.isLt; omega⟩ k) := by
  obtain ⟨e0, e1, -, -, -, -, -⟩ := idx_facts t
  show V m c main_arg0 (((cfg0.win 0).blk t).view.emb (ix2 r k)) = _
  refine (congrFun (V_main_arg0 m c) _).trans ?_
  refine congrArg _ (funext fun a => Fin.ext ?_)
  match a with
  | ⟨0, _⟩ => show win0_0.index t (0 : Fin 2) * 4096 + 1 * r.val = 4096 * t.val + r.val; rw [e0]; omega
  | ⟨1, _⟩ => show win0_0.index t (1 : Fin 2) * 1000 + 1 * k.val = k.val; rw [e1]; omega

/-- The labels column the region finds is the labels argument reshaped. -/
theorem V_labels (c : Dev nD) :
    (V m c main_v0 : S65536x1.Idx → BitVec 32)
      = shapeCast S65536x1 (m ((c : Thread nD τ).loc main_arg1) : S65536.Idx → BitVec 32) shapeCasts_S65536_S65536x1 := by
  show StableHlo.after hostOps0 (fun b => m (c, b)) (Proc.devRef .tc main_v0) = _
  after_results
  rfl

/-- The labels block at point t is labels 4096 t + r of the argument. -/
theorem lblk_apply (c : Dev nD) (t : Fin cfg0.N) (r : Fin 4096) :
    lblk m c t (ix2 r 0)
      = (m ((c : Thread nD τ).loc main_arg1) : S65536.Idx → BitVec 32)
          (ix1 ⟨4096 * t.val + r.val, by have := t_lt t; have := r.isLt; omega⟩) := by
  obtain ⟨-, -, e0, e1, -, -, -⟩ := idx_facts t
  show V m c main_v0 (((cfg0.win 1).blk t).view.emb (ix2 r 0)) = _
  refine (congrFun (V_labels m c) _).trans ?_
  refine shapeCast_apply (s := S65536) (t := S65536x1) (m ((c : Thread nD τ).loc main_arg1) : S65536.Idx → BitVec 32)
    shapeCasts_S65536_S65536x1 (((cfg0.win 1).blk t).view.emb (ix2 r 0))
    (ix1 ⟨4096 * t.val + r.val, by have := t_lt t; have := r.isLt; omega⟩) ?_
  show (S65536.rowMajor _).val = (S65536x1.rowMajor _).val
  rw [Shape.rowMajor_val_one, Shape.rowMajor_val_two]
  show 4096 * t.val + r.val = (win0_1.index t (0 : Fin 2) * 4096 + 1 * r.val) * 1 + (win0_1.index t (1 : Fin 2) * 1 + 1 * 0)
  rw [e0, e1]
  omega

/-! ## From blocks to the array -/

/-- The [16, 1, 1] array of tile sums. -/
def tiles (c : Dev nD) : S16x1x1.Idx → EReal := fun i =>
  tileSum (xOf (m ((c : Thread nD τ).loc main_arg0))) (labOf (m ((c : Thread nD τ).loc main_arg1))) ⟨(i 0).val, (i 0).isLt⟩

/-- What point t writes back is block t of the array of tile sums. -/
theorem flushed_eq (c : Dev nD) (t : Fin cfg0.N) :
    (dats m 0 c).flushed 2 t = ((cfg0.win 2).blk t).view.read (Elt Ideal) (tiles m c) := by
  obtain ⟨-, -, -, -, e0, -, -⟩ := idx_facts t
  show (cfg0.win 2).cut (grid0.coords t) ((dats m 0 c).after 2 t) = _
  rw [after0_2]
  unfold out0_2
  rw [View.canon_unit_zero hz3]
  simp only [View.ld_unit_zero (S := S4096x1000) hz2, View.ld_unit_zero (S := S4096x1) hz2]
  funext j
  show k0_pay1 (F := Ideal) (dblk m c t) (lblk m c t) j = tiles m c (((cfg0.win 2).blk t).view.emb j)
  refine (pay_tile (dblk m c t) (lblk m c t) (m ((c : Thread nD τ).loc main_arg0)) (m ((c : Thread nD τ).loc main_arg1))
    ⟨t.val, t_lt t⟩ (dblk_apply m c t) (lblk_apply m c t) j).trans ?_
  unfold tiles
  refine congrArg _ (Fin.ext ?_)
  have hj : (j 0).val < 1 := (j 0).isLt
  show t.val = win0_2.index t (0 : Fin 3) * 1 + 1 * (j 0).val
  rw [e0]
  omega

/-- An index of the array is in point t's block iff each coordinate is in the block's range on its axis. -/
theorem mem_blk (t : Fin cfg0.N) (i : S16x1x1.Idx) :
    i ∈ ((cfg0.win 2).blk t).view.set
      ↔ ∀ a : Fin 3, win0_2.index t a * S1x1x1.size a ≤ (i a).val ∧ (i a).val < win0_2.index t a * S1x1x1.size a + S1x1x1.size a := by
  show i ∈ ((View.whole main_v1).slice (win0_2.rect t)).set ↔ _
  rw [View.set_slice_whole, Rect.mem_set_unit]
  exact Iff.rfl

/-- The sixteen blocks cover the array: index (T, 0, 0) lies in point T's block. -/
theorem covered (i : S16x1x1.Idx) : ∃ t : Fin cfg0.N, (cfg0.win 2).flush t = true ∧ i ∈ ((cfg0.win 2).blk t).view.set := by
  have h0 : (i 0).val < 16 := (i 0).isLt
  have h1 : (i 1).val < 1 := (i 1).isLt
  have h2 : (i 2).val < 1 := (i 2).isLt
  have hN : (i 0).val < cfg0.N := lt_of_lt_of_eq h0 (show cfg0.N = 16 from N_0).symm
  refine ⟨⟨(i 0).val, hN⟩, flush0_2 _, ?_⟩
  obtain ⟨-, -, -, -, e0', e1, e2⟩ := idx_facts ⟨(i 0).val, hN⟩
  have e0 : win0_2.index ⟨(i 0).val, hN⟩ (0 : Fin 3) = (i 0).val := e0'
  rw [mem_blk]
  intro a
  match a with
  | ⟨0, _⟩ =>
    show win0_2.index ⟨(i 0).val, hN⟩ (0 : Fin 3) * 1 ≤ (i 0).val ∧ (i 0).val < win0_2.index ⟨(i 0).val, hN⟩ (0 : Fin 3) * 1 + 1
    rw [e0]; constructor <;> omega
  | ⟨1, _⟩ =>
    show win0_2.index ⟨(i 0).val, hN⟩ (1 : Fin 3) * 1 ≤ (i 1).val ∧ (i 1).val < win0_2.index ⟨(i 0).val, hN⟩ (1 : Fin 3) * 1 + 1
    rw [e1]; constructor <;> omega
  | ⟨2, _⟩ =>
    show win0_2.index ⟨(i 0).val, hN⟩ (2 : Fin 3) * 1 ≤ (i 2).val ∧ (i 2).val < win0_2.index ⟨(i 0).val, hN⟩ (2 : Fin 3) * 1 + 1
    rw [e2]; constructor <;> omega

/-- THE ARRAY after the region: the tile sums. -/
theorem final_tiles (c : Dev nD) : (dats m 0 c).arrAt 2 cfg0.N = tiles m c :=
  (dats m 0 c).arrAt_eq_of_cover 2 (tiles m c) (fun t _ => flushed_eq m c t) (covered)

/-! ## The host operations after the region, and the run -/

/-- THE RESULT: the sum of the tile sums from zero, over 65536, is the loss of the argument arrays. -/
theorem result_eq (c : Dev nD) :
    Pipeline.afterTail₀ cfgs (dats m) 0 (V0 m) [hostOps1] c main_v3
      = fun _ => loss (xOf (m ((c : Thread nD τ).loc main_arg0))) (labOf (m ((c : Thread nD τ).loc main_arg1))) := by
  unfold Pipeline.afterTail₀
  show StableHlo.after hostOps1 _ (Proc.devRef .tc main_v3) = _
  after_results
  rw [(Pipeline.withArrays_arr spec0 launch0.win.arr_inj c _ _ 2).trans (final_tiles m c)]
  funext i
  show Ideal.div (Ideal.hostReduceAdd reducesTo_S16x1x1_S_d0_1_2 (tiles m c) (Ideal.ofBits .f32 0x00000000#32) i)
      (Ideal.ofBits .f32 0x47800000#32) = _
  rw [Ideal.hostReduceAdd_total reducesTo_S16x1x1_S_d0_1_2 (fun b => b.elim0), sum_idx3_left]
  exact loss_of_tiles _ _

/-- THE RUN, read: the result buffer ends at the loss of the argument arrays, and the arguments end unchanged. -/
theorem run : θ_run defs (onTc (τ := τ) (main (F := Ideal))) ⟨m, fun _ => 0, ρ⟩ fun r => ∀ c : Dev nD,
      r.2.mem ((c.tc : Thread nD τ).loc main_v3)
        = (fun _ => loss (xOf (m ((c : Thread nD τ).loc main_arg0))) (labOf (m ((c : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Hand

end
-- ==== Proof.RefValue.lean ====
/-
  The reference's result as the loss of the argument arrays, under the precondition's two facts: every distance is a
  real number, and every label, as a natural number, is below 1000.

  Row by row the reference takes the minimum of the row, gathers the entry at the label (jnp's take_along_axis: a
  negative label would be wrapped by adding 1000, an index outside [0, 999] would give NaN, and the gather itself clamps;
  for a label in range none of the three does anything, and the entry gathered is the entry at the label), subtracts the
  minimum from every entry before summing the row, divides, sums the 65536 quotients from zero and divides by 65536.
  The denominators are the kernel's by arithmetic on real numbers; everything else is the same term.
-/
import proofs.«422849_j78615081386035_2_alg».proof.Proof.RefRead
import proofs.«422849_j78615081386035_2_alg».proof.Proof.Spec
import Idealize.ShloMosaic.PureOps.Ideal.Laws
import Idealize.ShloMosaic.Lib.ValueIdx
import Idealize.ShloMosaic.Lib.Pipeline.Value
import Idealize.ShloMosaic.Lib.Affine
import Idealize.ShloMosaic.Lib.StableHlo.Predicate

noncomputable section

namespace Cert.ReferenceIdeal.RefValue

open Idealize.ShloMosaic Idealize.ShloMosaic.ValueIdx Cert.ReferenceIdeal Cert.ReferenceIdeal.Gen Cert.ReferenceIdeal.ReadP
open Cert.ProtoLoss

/-! ## A reduce by and of all ones -/

/-- A left fold by and, from 1, over words that are all 1, is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    have ha : f a = 1#1 := h a (List.mem_cons.mpr (Or.inl rfl))
    have e : IntOp.andi 1#1 (f a) = 1#1 := by rw [ha]; decide
    rw [List.foldl_cons, e]
    exact foldl_andi_ones f l (fun n hn => h n (List.mem_cons.mpr (Or.inr hn)))

/-- A reduce by and, from 1, of an array of ones is 1 everywhere. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1) (hx : ∀ i, x i = 1#1) :
    Host.reduce IntOp.andi x init h hu j = 1#1 := by
  rw [Host.reduce_eq_foldl, hinit]
  exact foldl_andi_ones x _ (fun n _ => hx n)

/-! ## The gather -/

/-- The gather along a row: result (p, 0) reads row p of the operand at the start index of row p, read signed and clamped
    into [0, 999]. Row p is a batching axis of both operands, the column is the one collapsed, indexed axis. -/
theorem gather_row {α : Type} (x : S65536x1000.Idx → α) (idx : IVec S65536x1x1 32) (p : Fin 65536) :
    Host.gather gather_S65536x1000_S65536x1x1_S65536x1_n_1_0_0_1_2_11 x idx (ix2 p 0)
      = x (ix2 p ⟨min (idx (ix3 p 0 0)).toInt.toNat 999, by omega⟩) := by
  unfold Host.gather
  refine congrArg x (funext fun a => Fin.ext ?_)
  match a with
  | ⟨0, _⟩ =>
    show gather_S65536x1000_S65536x1x1_S65536x1_n_1_0_0_1_2_11.start (ix2 p 0) idx (0 : Fin 2)
        + gather_S65536x1000_S65536x1x1_S65536x1_n_1_0_0_1_2_11.batchCoord (ix2 p 0) (0 : Fin 2)
        + gather_S65536x1000_S65536x1x1_S65536x1_n_1_0_0_1_2_11.offCoord (ix2 p 0) (0 : Fin 2) = p.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S65536x1000_S65536x1x1_S65536x1_n_1_0_0_1_2_11.operandBatchingDims from
      List.mem_singleton.mpr rfl)]
    rfl
  | ⟨1, _⟩ =>
    show gather_S65536x1000_S65536x1x1_S65536x1_n_1_0_0_1_2_11.start (ix2 p 0) idx (1 : Fin 2)
        + gather_S65536x1000_S65536x1x1_S65536x1_n_1_0_0_1_2_11.batchCoord (ix2 p 0) (1 : Fin 2)
        + gather_S65536x1000_S65536x1x1_S65536x1_n_1_0_0_1_2_11.offCoord (ix2 p 0) (1 : Fin 2) = _
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S65536x1000_S65536x1x1_S65536x1_n_1_0_0_1_2_11.startIndexMap from
      List.mem_singleton.mpr rfl)]
    have hsi : gather_S65536x1000_S65536x1x1_S65536x1_n_1_0_0_1_2_11.siIdx (ix2 p 0)
        ⟨List.idxOf (1 : Fin 2) gather_S65536x1000_S65536x1x1_S65536x1_n_1_0_0_1_2_11.startIndexMap,
          List.idxOf_lt_length_iff.2 (List.mem_singleton.mpr rfl)⟩ = ix3 p 0 0 := by
      funext b
      refine Fin.ext ?_
      match b with
      | ⟨0, _⟩ => rfl
      | ⟨1, _⟩ => rfl
      | ⟨2, _⟩ => rfl
    rw [hsi]
    rfl

/-! ## The stages, row by row -/

variable (x0 : (⟨S65536x1000, .f32⟩ : BufTy).Contents (Elt Ideal)) (x1 : (⟨S65536, .i32⟩ : BufTy).Contents (Elt Ideal))

/-- A label below 1000 reads the same signed and unsigned. -/
theorem toInt_label (w : BitVec 32) (hw : w.toNat < 1000) : w.toInt = (w.toNat : ℤ) :=
  StableHlo.Predicate.toInt_eq_toNat_of_lt (by omega)

/-- The start index of row (i 0): the label itself, the wrap of negative labels not taken. -/
theorem start_index (hl : ∀ p : Fin 65536, (x1 (ix1 p) : BitVec 32).toNat < 1000) (i : S65536x1x1.Idx) :
    val_main_call0_v5 (F := Ideal) x1 i = x1 (ix1 (⟨(i 0).val, (i 0).isLt⟩ : Fin 65536)) := by
  have h1 : (i 1).val < 1 := (i 1).isLt
  have h2 : (i 2).val < 1 := (i 2).isLt
  have hidx : idx_main_v1 (idx_main_call0_v5 i) = ix1 (⟨(i 0).val, (i 0).isLt⟩ : Fin 65536) := by
    funext a
    refine Fin.ext ?_
    match a with
    | ⟨0, _⟩ => show (((i 0).val * 1 + (i 1).val) * 1 + (i 2).val) / 1 = (i 0).val; omega
  rw [val_main_call0_v5_apply, val_main_call0_v4_apply, val_main_call0_v1_apply, val_main_v1_apply, hidx,
    val_main_call0_v0_apply, val_main_call0_c_apply]
  have hw := hl ⟨(i 0).val, (i 0).isLt⟩
  have e := toInt_label _ hw
  have z : (0#32 : BitVec 32).toInt = 0 := by decide
  have hnot : ¬ IntOp.cmpi .slt (x1 (ix1 (⟨(i 0).val, (i 0).isLt⟩ : Fin 65536)) : BitVec 32) 0#32 = 1#1 := by
    rw [IntOp.cmpi_slt, e, z]
    omega
  exact if_neg hnot

/-- Every start index is inside [0, 999]. -/
theorem inbounds_one (hl : ∀ p : Fin 65536, (x1 (ix1 p) : BitVec 32).toNat < 1000) (i : S65536x1x1.Idx) :
    val_main_call0_v11 (F := Ideal) x1 i = 1#1 := by
  rw [val_main_call0_v11_apply, val_main_call0_v7_apply, val_main_call0_v10_apply, start_index x1 hl i,
    val_main_call0_v6_apply, val_main_call0_c_2_apply, val_main_call0_v9_apply, val_main_call0_v8_apply,
    val_main_call0_c_1_apply]
  have hw := hl ⟨(i 0).val, (i 0).isLt⟩
  have e := toInt_label _ hw
  have z : (0#32 : BitVec 32).toInt = 0 := by decide
  have k : (999#32 : BitVec 32).toInt = 999 := by decide
  exact IntOp.andi_eq_one.mpr ⟨IntOp.cmpi_sge.mpr (by rw [e, z]; omega), IntOp.cmpi_sle.mpr (by rw [e, k]; omega)⟩

/-- So the in-bounds mask is 1 at every row. -/
theorem mask_one (hl : ∀ p : Fin 65536, (x1 (ix1 p) : BitVec 32).toNat < 1000) (j : S65536x1.Idx) :
    val_main_call0_v12 (F := Ideal) x1 j = 1#1 := by
  unfold val_main_call0_v12
  exact reduce_andi_of_all _ _ _ _ j rfl (inbounds_one x1 hl)

/-- The gathered entry of row p is the distance at the row's label. -/
theorem entry_apply (hl : ∀ p : Fin 65536, (x1 (ix1 p) : BitVec 32).toNat < 1000) (p : Fin 65536) :
    val_main_v3 (F := Ideal) x0 x1 (ix1 p) = x0 (ix2 p ⟨(x1 (ix1 p) : BitVec 32).toNat, hl p⟩) := by
  have hidx : idx_main_v3 (ix1 p) = ix2 p 0 := by
    funext a
    refine Fin.ext ?_
    match a with
    | ⟨0, _⟩ => show p.val / 1 = p.val; omega
    | ⟨1, _⟩ => rfl
  rw [val_main_v3_apply, hidx, val_main_v2_apply, mask_one x1 hl (ix2 p 0)]
  show val_main_call0_v13 (F := Ideal) x0 x1 (ix2 p 0) = _
  unfold val_main_call0_v13
  rw [gather_row]
  have hw := hl p
  have e := toInt_label _ hw
  refine congrArg (fun q : Fin 1000 => x0 (ix2 p q)) (Fin.ext ?_)
  show min (val_main_call0_v5 (F := Ideal) x1 (ix3 p 0 0)).toInt.toNat 999 = (x1 (ix1 p) : BitVec 32).toNat
  rw [start_index x1 hl (ix3 p 0 0)]
  show min (x1 (ix1 p) : BitVec 32).toInt.toNat 999 = (x1 (ix1 p) : BitVec 32).toNat
  rw [e, Int.toNat_natCast]
  omega

/-- Reducing the distances along their second axis leaves one entry per row. -/
theorem reduces_rows : S65536x1000.Reduces [1] S65536 := by decide

/-- The minimum of row p. -/
theorem rowMin_apply (p : Fin 65536) : val_main_v0 (F := Ideal) x0 (ix1 p) = rowMin (xOf x0 p) := by
  unfold val_main_v0
  refine (Host.reduce_eq_fold_single (FloatOps.minimumf (F := Ideal) (φ := .f32)) x0 (val_main_cst (F := Ideal))
    reducesTo_S65536x1000_S65536_d1 reduces_rows h_S_ (ix1 p)).trans ?_
  show Finset.fold min (Ideal.ofBits .f32 0x7F800000#32) _ _ = _
  rw [ofBits_posInf]
  unfold rowMin xOf
  congr 1
  funext k
  exact congrArg x0 (funext fun a => Fin.ext (by
    match a with
    | ⟨0, _⟩ => rfl
    | ⟨1, _⟩ => rfl))

/-- The denominator of row p: from zero, the sum of the entries less the minimum. -/
theorem denom_apply (p : Fin 65536) :
    val_main_v7 (F := Ideal) x0 (ix1 p)
      = Ideal.ofBits .f32 0x00000000#32 + ∑ k : Fin 1000, (xOf x0 p k - rowMin (xOf x0 p)) := by
  rw [val_main_v7_apply]
  refine congrArg₂ (· + ·) rfl (Finset.sum_congr rfl fun k _ => ?_)
  have h1 : idx_main_v7 (ix1 p) k = ix2 p k := funext fun a => Fin.ext (by
    match a with
    | ⟨0, _⟩ => rfl
    | ⟨1, _⟩ => rfl)
  have h2 : idx_main_v4 (idx_main_v5 (ix2 p k)) = ix1 p := funext fun a => Fin.ext (by
    match a with
    | ⟨0, _⟩ => rfl)
  rw [val_main_v6_apply, val_main_v5_apply, val_main_v4_apply, h1, h2, rowMin_apply]
  rfl

/-- The quotient of row p is the row's term. -/
theorem perRow_apply (hf : ∀ i, ∃ r : ℝ, x0 i = (r : EReal))
    (hl : ∀ p : Fin 65536, (x1 (ix1 p) : BitVec 32).toNat < 1000) (p : Fin 65536) :
    val_main_v9 (F := Ideal) x0 x1 (ix1 p) = perRow (xOf x0 p) (labOf x1 p) := by
  rw [val_main_v9_apply, val_main_v8_apply, entry_apply x0 x1 hl p, rowMin_apply, denom_apply]
  exact perRow_of_entry (xOf x0 p) (fun k => hf (ix2 p k)) (labOf x1 p) (hl p)

/-- THE RESULT: the reference's last stage is the loss of the argument arrays. -/
theorem result_eq (hf : ∀ i, ∃ r : ℝ, x0 i = (r : EReal))
    (hl : ∀ p : Fin 65536, (x1 (ix1 p) : BitVec 32).toNat < 1000) :
    val_main_v11 (F := Ideal) x0 x1 = fun _ => loss (xOf x0) (labOf x1) := by
  funext i
  rw [val_main_v11_apply, val_main_v10_apply, sum_idx1]
  simp only [perRow_apply x0 x1 hf hl]
  show Ideal.div (Ideal.ofBits .f32 0x00000000#32 + _) (Ideal.ofBits .f32 0x47800000#32) = _
  rw [Ideal.ofBits_zero_f32, zero_add]
  rfl

end Cert.ReferenceIdeal.RefValue

end
-- ==== Proof.lean ====
/-
  The prototype loss: for 65536 rows of 1000 distances and one label per row, the mean over the rows of
      (d[label] - min d) / sum (d - min d).

  The kernel takes the rows in sixteen tiles of 4096, picks the in-class distance out of a row by a mask (the positions
  equal to the label) and a sum, computes the denominator as (sum d) - 1000 * (min d), adds the tile's quotients into one
  number per tile, and lets the host add the sixteen numbers and divide by 65536. The reference gathers the in-class
  distance, subtracts the minimum entry by entry before summing, and takes the mean. On the extended reals the two are
  the same number when every distance is a real number (the two denominators agree by arithmetic in the reals, which
  would fail at an infinite entry) and every label is in [0, 1000) (outside it the reference's gather wraps or returns
  NaN while the kernel's mask matches nothing): the precondition says exactly these two things. Regrouping the sum of
  the quotients by tiles needs neither, addition on the extended reals being commutative and associative throughout.

  The three frames are the generated ones (the reference's is its run with the result dropped); the idealization rewrote
  nothing, so the preservation claim is trivial; the value claim names the loss of the argument arrays as the common result.
-/
import proofs.«422849_j78615081386035_2_alg».proof.Defs
import proofs.«422849_j78615081386035_2_alg».proof.Proof.Gen.Kernel
import proofs.«422849_j78615081386035_2_alg».proof.Proof.Gen.Kernel.Skeleton
import proofs.«422849_j78615081386035_2_alg».proof.Proof.Gen.Kernel.Launch
import proofs.«422849_j78615081386035_2_alg».proof.Proof.Gen.Kernel.Points
import proofs.«422849_j78615081386035_2_alg».proof.Proof.Gen.Kernel.Frame
import proofs.«422849_j78615081386035_2_alg».proof.Proof.Gen.KernelIdeal
import proofs.«422849_j78615081386035_2_alg».proof.Proof.Gen.KernelIdeal.Skeleton
import proofs.«422849_j78615081386035_2_alg».proof.Proof.Gen.KernelIdeal.Launch
import proofs.«422849_j78615081386035_2_alg».proof.Proof.Gen.KernelIdeal.Points
import proofs.«422849_j78615081386035_2_alg».proof.Proof.Gen.KernelIdeal.Frame
import proofs.«422849_j78615081386035_2_alg».proof.Proof.Gen.ReferenceIdeal
import proofs.«422849_j78615081386035_2_alg».proof.Proof.Gen.Pre_finite_inputs
import proofs.«422849_j78615081386035_2_alg».proof.Proof.RefRun
import proofs.«422849_j78615081386035_2_alg».proof.Proof.RefRead
import proofs.«422849_j78615081386035_2_alg».proof.Proof.Spec
import proofs.«422849_j78615081386035_2_alg».proof.Proof.PreDecode
import proofs.«422849_j78615081386035_2_alg».proof.Proof.KernelValue
import proofs.«422849_j78615081386035_2_alg».proof.Proof.RefValue
import Idealize.ShloMosaic.Adequacy
import Idealize.ShloMosaic.Init

noncomputable section

namespace Cert.Proof

open Idealize.ShloMosaic Idealize.ShloMosaic.ValueIdx Idealize.SL.Sem Cert.ProtoLoss

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end at the loss of the argument arrays: the kernel by its tiles, the reference row by row under the
    precondition's two facts. -/
theorem algebraic : Cert.algebraic_KernelIdeal_ReferenceIdeal := by
  intro m ρ m' ρ' hpre hagree
  refine ⟨fun c => fun _ => loss
      (xOf (m ((c.tc : Thread Cert.KernelIdeal.nD Cert.KernelIdeal.τ).loc Cert.KernelIdeal.main_arg0)))
      (labOf (m ((c.tc : Thread Cert.KernelIdeal.nD Cert.KernelIdeal.τ).loc Cert.KernelIdeal.main_arg1))),
    Cert.KernelIdeal.Hand.run m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.ReadP.val_main_v11_eq (F := Ideal) _ _).trans ?_
  rw [(hagree c).1, (hagree c).2]
  obtain ⟨hf, hl⟩ := Cert.ProtoLoss.Pre.decode _ _ (hpre c)
  exact Cert.ReferenceIdeal.RefValue.result_eq _ _ hf (fun p => hl (ix1 p))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
